-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x8192 : Shape := ⟨3, ![8, 2048, 8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_

variable [Facts]

def fn {F : FTy → Type} [FloatOps F] (main_arg0 : FVec F S16384x2048 .f32) (main_arg1 : FVec F S8x2048x8192 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  main_v8
-- ==== Kernel.lean ====
abbrev S16384x2048 : Shape := ⟨2, ![16384, 2048]⟩
abbrev S8x2048x8192 : Shape := ⟨3, ![8, 2048, 8192]⟩
abbrev S32 : Shape := ⟨1, ![32]⟩
abbrev S16384x8192 : Shape := ⟨2, ![16384, 8192]⟩
abbrev S512x2048 : Shape := ⟨2, ![512, 2048]⟩
abbrev S1x2048x2048 : Shape := ⟨3, ![1, 2048, 2048]⟩
abbrev S1 : Shape := ⟨1, ![1]⟩
abbrev S2048x2048 : Shape := ⟨2, ![2048, 2048]⟩

abbrev nBuf : Space → Nat
  | .hbm => 5
  | .vmem => 6
  | .smem => 1
  | _ => 0

abbrev bufTy : (tb : Table) → Fin (tcTables nBuf tb) → BufTy
  | .hbm, ⟨0, _⟩ => ⟨S16384x2048, .f32⟩
  | .hbm, ⟨1, _⟩ => ⟨S8x2048x8192, .f32⟩
  | .hbm, ⟨2, _⟩ => ⟨S16384x2048, .bf16⟩
  | .hbm, ⟨3, _⟩ => ⟨S8x2048x8192, .bf16⟩
  | .hbm, ⟨4, _⟩ => ⟨S16384x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .smem, ⟨0, _⟩ => ⟨S32, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  numel1_S1 : S1.numel = 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  dot_S512x2048_S2048x2048_S512x2048_1_0_0_1_n_n_wf : DotDims.WF S512x2048 S2048x2048 S512x2048 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x8192.size a
  hwx0_2 : ∀ i : grid0.Coords, EltTy.bits .f32 = 32 ∨ (Rect.block (s := S16384x8192) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev spec0_0 : Pipeline.WinSpec sig grid0.rank :=
  Pipeline.WinSpec.ofSpec (Memref.whole main_v0) S512x2048.size reads0_0 false false 2 stage0_0 sem0_0 nbuf0_0 hstage0_0

abbrev spec0_1 : Pipeline.WinSpec sig grid0.rank :=
  Pipeline.WinSpec.ofSpec (Memref.whole main_v1) S1x2048x2048.size reads0_1 false false 2 stage0_1 sem0_1 nbuf0_1 hstage0_1

abbrev spec0_2 : Pipeline.WinSpec sig grid0.rank :=
  Pipeline.WinSpec.ofSpec (Memref.whole main_v2) S512x2048.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x2048.size a ≤ S8x2048x8192.size a), EltTy.bits .bf16 = 32 ∨ (Rect.block (s := S8x2048x8192) S1x2048x2048.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16384x2048 : Shape := ⟨2, ![16384, 2048]⟩
abbrev S8x2048x8192 : Shape := ⟨3, ![8, 2048, 8192]⟩
abbrev S1024x2048 : Shape := ⟨2, ![1024, 2048]⟩
abbrev S1x2048x8192 : Shape := ⟨3, ![1, 2048, 8192]⟩
abbrev S2048x8192 : Shape := ⟨2, ![2048, 8192]⟩
abbrev S1024x8192 : Shape := ⟨2, ![1024, 8192]⟩
abbrev S1536x2048 : Shape := ⟨2, ![1536, 2048]⟩
abbrev S1536x8192 : Shape := ⟨2, ![1536, 8192]⟩
abbrev S2048x2048 : Shape := ⟨2, ![2048, 2048]⟩
abbrev S2560x2048 : Shape := ⟨2, ![2560, 2048]⟩
abbrev S2560x8192 : Shape := ⟨2, ![2560, 8192]⟩
abbrev S3072x2048 : Shape := ⟨2, ![3072, 2048]⟩
abbrev S3072x8192 : Shape := ⟨2, ![3072, 8192]⟩
abbrev S16384x8192 : Shape := ⟨2, ![16384, 8192]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x8192, .f32⟩
  | .hbm, ⟨2, _⟩ => ⟨S1024x2048, .f32⟩
  | .hbm, ⟨3, _⟩ => ⟨S1x2048x8192, .f32⟩
  | .hbm, ⟨4, _⟩ => ⟨S2048x8192, .f32⟩
  | .hbm, ⟨5, _⟩ => ⟨S1024x8192, .f32⟩
  | .hbm, ⟨6, _⟩ => ⟨S1536x2048, .f32⟩
  | .hbm, ⟨7, _⟩ => ⟨S1x2048x8192, .f32⟩
  | .hbm, ⟨8, _⟩ => ⟨S2048x8192, .f32⟩
  | .hbm, ⟨9, _⟩ => ⟨S1536x8192, .f32⟩
  | .hbm, ⟨10, _⟩ => ⟨S2048x2048, .f32⟩
  | .hbm, ⟨11, _⟩ => ⟨S1x2048x8192, .f32⟩
  | .hbm, ⟨12, _⟩ => ⟨S2048x8192, .f32⟩
  | .hbm, ⟨13, _⟩ => ⟨S2048x8192, .f32⟩
  | .hbm, ⟨14, _⟩ => ⟨S2048x2048, .f32⟩
  | .hbm, ⟨15, _⟩ => ⟨S1x2048x8192, .f32⟩
  | .hbm, ⟨16, _⟩ => ⟨S2048x8192, .f32⟩
  | .hbm, ⟨17, _⟩ => ⟨S2048x8192, .f32⟩
  | .hbm, ⟨18, _⟩ => ⟨S2560x2048, .f32⟩
  | .hbm, ⟨19, _⟩ => ⟨S1x2048x8192, .f32⟩
  | .hbm, ⟨20, _⟩ => ⟨S2048x8192, .f32⟩
  | .hbm, ⟨21, _⟩ => ⟨S2560x8192, .f32⟩
  | .hbm, ⟨22, _⟩ => ⟨S2048x2048, .f32⟩
  | .hbm, ⟨23, _⟩ => ⟨S1x2048x8192, .f32⟩
  | .hbm, ⟨24, _⟩ => ⟨S2048x8192, .f32⟩
  | .hbm, ⟨25, _⟩ => ⟨S2048x8192, .f32⟩
  | .hbm, ⟨26, _⟩ => ⟨S3072x2048, .f32⟩
  | .hbm, ⟨27, _⟩ => ⟨S1x2048x8192, .f32⟩
  | .hbm, ⟨28, _⟩ => ⟨S2048x8192, .f32⟩
  | .hbm, ⟨29, _⟩ => ⟨S3072x8192, .f32⟩
  | .hbm, ⟨30, _⟩ => ⟨S2048x2048, .f32⟩
  | .hbm, ⟨31, _⟩ => ⟨S1x2048x8192, .f32⟩
  | .hbm, ⟨32, _⟩ => ⟨S2048x8192, .f32⟩
  | .hbm, ⟨33, _⟩ => ⟨S2048x8192, .f32⟩
  | .hbm, ⟨34, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩

abbrev nD : Nat := 1
abbrev τ : Topo := Topo.v7x

variable {F : FTy → Type} [FloatOps F]

class Facts₀ : Prop where
  slices_S16384x2048_S1024x2048_0_0 : S16384x2048.Slices ![0, 0] S1024x2048
  slices_S8x2048x8192_S1x2048x8192_0_0_0 : S8x2048x8192.Slices ![0, 0, 0] S1x2048x8192
  shapeCasts_S1x2048x8192_S2048x8192 : S1x2048x8192.ShapeCasts S2048x8192
  slices_S16384x2048_S1536x2048_1024_0 : S16384x2048.Slices ![1024, 0] S1536x2048
  slices_S8x2048x8192_S1x2048x8192_1_0_0 : S8x2048x8192.Slices ![1, 0, 0] S1x2048x8192
  slices_S16384x2048_S2048x2048_2560_0 : S16384x2048.Slices ![2560, 0] S2048x2048
  slices_S8x2048x8192_S1x2048x8192_2_0_0 : S8x2048x8192.Slices ![2, 0, 0] S1x2048x8192
  slices_S16384x2048_S2048x2048_4608_0 : S16384x2048.Slices ![4608, 0] S2048x2048
  slices_S8x2048x8192_S1x2048x8192_3_0_0 : S8x2048x8192.Slices ![3, 0, 0] S1x2048x8192
  slices_S16384x2048_S2560x2048_6656_0 : S16384x2048.Slices ![6656, 0] S2560x2048
  slices_S8x2048x8192_S1x2048x8192_4_0_0 : S8x2048x8192.Slices ![4, 0, 0] S1x2048x8192
  slices_S16384x2048_S2048x2048_9216_0 : S16384x2048.Slices ![9216, 0] S2048x2048
  slices_S8x2048x8192_S1x2048x8192_5_0_0 : S8x2048x8192.Slices ![5, 0, 0] S1x2048x8192
  slices_S16384x2048_S3072x2048_11264_0 : S16384x2048.Slices ![11264, 0] S3072x2048
  slices_S8x2048x8192_S1x2048x8192_6_0_0 : S8x2048x8192.Slices ![6, 0, 0] S1x2048x8192
  slices_S16384x2048_S2048x2048_14336_0 : S16384x2048.Slices ![14336, 0] S2048x2048
  slices_S8x2048x8192_S1x2048x8192_7_0_0 : S8x2048x8192.Slices ![7, 0, 0] S1x2048x8192
  concatenates_S1024x8192_S1536x8192_S2048x8192_S2048x8192_S2560x8192_S2048x8192_S3072x8192_S2048x8192_S16384x8192_d0 : Shape.Concatenates [S1024x8192, S1536x8192, S2048x8192, S2048x8192, S2560x8192, S2048x8192, S3072x8192, S2048x8192] S16384x8192 0
  dot_S1024x2048_S2048x8192_S1024x8192_1_0_0_1_n_n_wf : DotDims.WF S1024x2048 S2048x8192 S1024x8192 [1] [0] [0] [1] [] []
  dot_S1536x2048_S2048x8192_S1536x8192_1_0_0_1_n_n_wf : DotDims.WF S1536x2048 S2048x8192 S1536x8192 [1] [0] [0] [1] [] []
  dot_S2048x2048_S2048x8192_S2048x8192_1_0_0_1_n_n_wf : DotDims.WF S2048x2048 S2048x8192 S2048x8192 [1] [0] [0] [1] [] []
  dot_S2560x2048_S2048x8192_S2560x8192_1_0_0_1_n_n_wf : DotDims.WF S2560x2048 S2048x8192 S2560x8192 [1] [0] [0] [1] [] []
  dot_S3072x2048_S2048x8192_S3072x8192_1_0_0_1_n_n_wf : DotDims.WF S3072x2048 S2048x8192 S3072x8192 [1] [0] [0] [1] [] []

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1536x2048_S2048x8192_S1536x8192_1_0_0_1_n_n : DotDims S1536x2048 S2048x8192 S1536x8192 where
  lhsContracting := [1]
  rhsContracting := [0]
  lhsNonContracting := [0]
  rhsNonContracting := [1]
  lhsBatch := []
  rhsBatch := []
  wf := dot_S1536x2048_S2048x8192_S1536x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2560x2048_S2048x8192_S2560x8192_1_0_0_1_n_n : DotDims S2560x2048 S2048x8192 S2560x8192 where
  lhsContracting := [1]
  rhsContracting := [0]
  lhsNonContracting := [0]
  rhsNonContracting := [1]
  lhsBatch := []
  rhsBatch := []
  wf := dot_S2560x2048_S2048x8192_S2560x8192_1_0_0_1_n_n_wf
def dot_S3072x2048_S2048x8192_S3072x8192_1_0_0_1_n_n : DotDims S3072x2048 S2048x8192 S3072x8192 where
  lhsContracting := [1]
  rhsContracting := [0]
  lhsNonContracting := [0]
  rhsNonContracting := [1]
  lhsBatch := []
  rhsBatch := []
  wf := dot_S3072x2048_S2048x8192_S3072x8192_1_0_0_1_n_n_wf

class Facts : Prop extends Facts₀ where

variable [Facts]
-- ==== Proof.Spec.lean ====
/-
  The grouped product as ONE function of the two argument arrays.

  The 16384 rows of the left operand fall into eight consecutive groups of 1024, 1536, 2048, 2048, 2560, 2048, 3072
  and 2048 rows; `grp r` is the group that holds row `r`. Row `r` of the result is row `r` of the left operand times
  the matrix of ITS group: entry (r, c) is the sum over k of x(r, k) · w(grp r, k, c), on the extended reals.

  Every group's extent is a multiple of 512, so a tile of 512 consecutive rows lies inside one group: `tileGrp t` is
  the group of tile `t` (rows 512 t … 512 t + 511), and `grp_tile` says so.
-/
import Idealize.ShloMosaic.PureOps.Ideal
import Idealize.ShloMosaic.Lib.ValueIdx

noncomputable section

open scoped BigOperators

namespace Cert.Grouped

open Idealize.ShloMosaic Idealize.ShloMosaic.ValueIdx

/-- The group that holds row `r`: the groups start at rows 0, 1024, 2560, 4608, 6656, 9216, 11264 and 14336. -/
def grp (r : Nat) : Nat :=
  if r < 1024 then 0 else if r < 2560 then 1 else if r < 4608 then 2 else if r < 6656 then 3
  else if r < 9216 then 4 else if r < 11264 then 5 else if r < 14336 then 6 else 7

theorem grp_lt (r : Nat) : grp r < 8 := by
  unfold grp; split_ifs <;> omega

/-- The group of the tile of rows 512 t … 512 t + 511: the groups start at tiles 0, 2, 5, 9, 13, 18, 22 and 28. -/
def tileGrp (t : Nat) : Nat :=
  if t < 2 then 0 else if t < 5 then 1 else if t < 9 then 2 else if t < 13 then 3
  else if t < 18 then 4 else if t < 22 then 5 else if t < 28 then 6 else 7

/-- A tile of 512 rows lies inside one group. -/
theorem grp_tile (t q : Nat) (hq : q < 512) : grp (512 * t + q) = tileGrp t := by
  unfold grp tileGrp; split_ifs <;> omega

/-- The group of a row, as an index of the right operand's leading axis. -/
def grpF (r : Fin 16384) : Fin 8 := ⟨grp r.val, grp_lt _⟩

/-- Entry (r, c) of the grouped product. -/
def entry (x : FVec Ideal ⟨2, ![16384, 2048]⟩ .f32) (w : FVec Ideal ⟨3, ![8, 2048, 8192]⟩ .f32)
    (r : Fin 16384) (c : Fin 8192) : EReal :=
  ∑ k : Fin 2048, x (ix2 r k) * w (ix3 (grpF r) k c)

/-- The grouped product, index by index. -/
def G (x : FVec Ideal ⟨2, ![16384, 2048]⟩ .f32) (w : FVec Ideal ⟨3, ![8, 2048, 8192]⟩ .f32) :
    FVec Ideal ⟨2, ![16384, 8192]⟩ .f32 :=
  fun j => entry x w (j 0) (j 1)

theorem G_apply (x : FVec Ideal ⟨2, ![16384, 2048]⟩ .f32) (w : FVec Ideal ⟨3, ![8, 2048, 8192]⟩ .f32)
    (r : Fin 16384) (c : Fin 8192) : G x w (ix2 r c) = entry x w r c := rfl

end Cert.Grouped

end
-- ==== Proof.KernelOk.lean ====
/-
  The pipeline's side condition on the prefetched table of `Kernel`.

  The table is the constant @main itself writes before the region: 32 words, the group of each tile of 512 rows,
  every one of them between 0 and 7. Window 1's index map reads block (table[i], 0, j) of the [8, 2048, 8192]
  operand in blocks of [1, 2048, 2048]: with table[i] < 8 and j < 4 the block lies inside the array, and it takes
  whole rows of the second axis from an even offset, so its transfer ends on whole words.
-/
import proofs.«129619_j31877247271320_1_alg».proof.Proof.Gen.Kernel.Frame
import proofs.«129619_j31877247271320_1_alg».proof.Proof.Spec

set_option maxRecDepth 16384

noncomputable section

namespace Cert.Kernel.TableOk

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Every word of the constant is the group of its tile, in particular below 8. -/
theorem lit_tile : ∀ t : Fin 32, (lit0 t).toNat = Cert.Grouped.tileGrp t.val := by decide

theorem lit_lt (t : Fin 32) : (lit0 t).toNat < 8 := by
  rw [lit_tile]; unfold Cert.Grouped.tileGrp; split_ifs <;> omega

/-- The table the region finds is the constant @main wrote. -/
theorem tbl_eq (x : S32.Idx) : tbl m 0 x = lit0 (S32.rowMajor x) := by
  unfold tbl
  show V m 0 main_c x = _
  dsimp only [V, hostOps0]
  after_results

/-- The table's words are below 8. -/
theorem tbl_lt (x : S32.Idx) : (tbl m 0 x).toNat < 8 := by
  rw [tbl_eq]; exact lit_lt _

/-- Any table whose words are below 8 passes the pipeline's side condition. -/
theorem ok_of_lt (pf : pre0.Contents (Elt F)) (h : ∀ x, (pf 0 x).toNat < 8) : ok0 (F := F) pf := by
  intro i
  have hj : (BitVec.ofNat 32 (i 1).val).toNat < 4 := by
    have h1 : (i 1).val < 4 := (i 1).isLt
    rw [BitVec.toNat_ofNat]; omega
  obtain ⟨w, hw, j, hj', e⟩ : ∃ w : BitVec 32, w.toNat < 8 ∧ ∃ j : Nat, j < 4 ∧
      cc0_transform_1 k0_off1_inb numel1_S1 pf i = ![w.toNat, 0, j] := ⟨_, h _, _, hj, rfl⟩
  refine ⟨fun a => ?_, Or.inr ?_⟩
  · rw [e]
    fin_cases a <;> simp [S1x2048x2048, S8x2048x8192] <;> omega
  · refine Or.inl (Or.inr ⟨by decide, rfl, Or.inl ⟨?_, ?_⟩⟩)
    · show EltTy.bf16.packing ∣ cc0_transform_1 k0_off1_inb numel1_S1 pf i (S8x2048x8192.rowAx (by decide)) * S1x2048x2048.size (S8x2048x8192.rowAx (by decide))
      rw [e]
      exact ⟨0, rfl⟩
    · exact ⟨1024, rfl⟩

theorem ok : Ok m := ok_of_lt (tbl m) (tbl_lt m)

end Cert.Kernel.TableOk

end
-- ==== Proof.KernelIdealOk.lean ====
/-
  The pipeline's side condition on the prefetched table of `KernelIdeal`.

  The table is the constant @main itself writes before the region: 32 words, the group of each tile of 512 rows,
  every one of them between 0 and 7. Window 1's index map reads block (table[i], 0, j) of the [8, 2048, 8192]
  operand in blocks of [1, 2048, 2048]: with table[i] < 8 and j < 4 the block lies inside the array, and it takes
  whole rows of the second axis from an even offset, so its transfer ends on whole words.
-/
import proofs.«129619_j31877247271320_1_alg».proof.Proof.Gen.KernelIdeal.Frame
import proofs.«129619_j31877247271320_1_alg».proof.Proof.Spec

set_option maxRecDepth 16384

noncomputable section

namespace Cert.KernelIdeal.TableOk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every word of the constant is the group of its tile, in particular below 8. -/
theorem lit_tile : ∀ t : Fin 32, (lit0 t).toNat = Cert.Grouped.tileGrp t.val := by decide

theorem lit_lt (t : Fin 32) : (lit0 t).toNat < 8 := by
  rw [lit_tile]; unfold Cert.Grouped.tileGrp; split_ifs <;> omega

/-- The table the region finds is the constant @main wrote. -/
theorem tbl_eq (x : S32.Idx) : tbl m 0 x = lit0 (S32.rowMajor x) := by
  unfold tbl
  show V m 0 main_c x = _
  dsimp only [V, hostOps0]
  after_results

/-- The table's words are below 8. -/
theorem tbl_lt (x : S32.Idx) : (tbl m 0 x).toNat < 8 := by
  rw [tbl_eq]; exact lit_lt _

/-- Any table whose words are below 8 passes the pipeline's side condition. -/
theorem ok_of_lt (pf : pre0.Contents (Elt F)) (h : ∀ x, (pf 0 x).toNat < 8) : ok0 (F := F) pf := by
  intro i
  have hj : (BitVec.ofNat 32 (i 1).val).toNat < 4 := by
    have h1 : (i 1).val < 4 := (i 1).isLt
    rw [BitVec.toNat_ofNat]; omega
  obtain ⟨w, hw, j, hj', e⟩ : ∃ w : BitVec 32, w.toNat < 8 ∧ ∃ j : Nat, j < 4 ∧
      cc0_transform_1 k0_off1_inb numel1_S1 pf i = ![w.toNat, 0, j] := ⟨_, h _, _, hj, rfl⟩
  refine ⟨fun a => ?_, Or.inr ?_⟩
  · rw [e]
    fin_cases a <;> simp [S1x2048x2048, S8x2048x8192] <;> omega
  · refine Or.inl (Or.inr ⟨by decide, rfl, Or.inl ⟨?_, ?_⟩⟩)
    · show EltTy.bf16.packing ∣ cc0_transform_1 k0_off1_inb numel1_S1 pf i (S8x2048x8192.rowAx (by decide)) * S1x2048x2048.size (S8x2048x8192.rowAx (by decide))
      rw [e]
      exact ⟨0, rfl⟩
    · exact ⟨1024, rfl⟩

theorem ok : Ok m := ok_of_lt (tbl m) (tbl_lt m)

end Cert.KernelIdeal.TableOk

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KernelIdealValue.lean ====
/-
  The value of the kernel's run at the ideal instance: the result array ends holding the grouped product of the two
  argument arrays.

  The grid is 32 row tiles by 4 column tiles; point t is row tile t / 4 and column tile t % 4. The body multiplies the
  point's [512, 2048] block of the left operand by a [2048, 2048] block of one of the eight matrices into a zero
  accumulator and stores the product whole. Which matrix: window 1's index map reads the prefetched table at the row
  tile, and the table, the constant @main writes before the region, holds the group of each row tile (`tileGrp`).
  A tile of 512 rows lies inside one group, so that is the group of every row of the tile, and entry (p, q) of the
  point's product is the grouped product at entry (512 (t / 4) + p, 2048 (t % 4) + q). On the extended reals the
  change of float format before the region is the identity, and the product into zero is the plain sum over the
  shared axis. The 128 blocks cover the result and every point writes its block back, so the array ends at the
  grouped product.

  Every fact about the pipeline's windows is stated at ANY admissible contents of the table; the contents the region
  finds are put in last.
-/
import proofs.«129619_j31877247271320_1_alg».proof.Proof.Gen.KernelIdeal.Frame
import proofs.«129619_j31877247271320_1_alg».proof.Proof.KernelIdealOk
import proofs.«129619_j31877247271320_1_alg».proof.Proof.Spec
import proofs.«129619_j31877247271320_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_piece (c : Dev nD) (i : grid0.Coords) (arg3 : Memref sig .tc .vmem S512x2048 .bf16) (harg3 : arg3.IsWhole)
    (arg4 : Memref sig .tc .vmem S1x2048x2048 .bf16) (harg4 : arg4.IsWhole) (arg5 : Memref sig .tc .vmem S512x2048 .f32) (harg5 : arg5.IsWhole)
    (x0 : Vec F S512x2048 .bf16) (x1 : Vec F S1x2048x2048 .bf16) (xt0 : TbBuf0 (F := F) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero hz2]
  simp only [View.readAt_eq_ld, harg3.read_unread, harg4.read_unread, View.ld_unit_zero (S := S512x2048) hz2,
    View.ld_unit_zero (S := S1x2048x2048) hz3]

theorem pay_apply (x0 : Vec Ideal S512x2048 .bf16) (x1 : Vec Ideal S1x2048x2048 .bf16) (p : Fin 512) (q : Fin 2048) :
    k0_pay1 (F := Ideal) x0 x1 (ix2 p q) = ∑ k : Fin 2048, x0 (ix2 p k) * x1 (ix3 (0 : Fin 1) k q) := by
  unfold k0_pay1
  refine (Cert.LibDot.matmul_zero_at dot_S512x2048_S2048x2048_S512x2048_1_0_0_1_n_n rfl rfl rfl rfl rfl rfl none _ _ p q).trans ?_
  refine Finset.sum_congr rfl fun k _ => ?_
  rw [shapeCast_self, shapeCast_1ab_ab_apply]

/-! ## The index maps over the grid -/

/-- Windows 0 and 2 read no table: point t is row tile t / 4 and column tile t % 4, whatever the table holds. -/
theorem idx_facts (a : (pcfg0 (F := F)).Adm) : ∀ t : Fin (cfg0 a).N,
    ((cfg0 a).win 0).index t (0 : Fin 2) = t.val / 4 ∧ ((cfg0 a).win 0).index t (1 : Fin 2) = 0
    ∧ ((cfg0 a).win 2).index t (0 : Fin 2) = t.val / 4 ∧ ((cfg0 a).win 2).index t (1 : Fin 2) = t.val % 4 :=
  (by decide +kernel : ∀ t : Fin grid0.N, cc0_transform_0 (grid0.coords t) (0 : Fin 2) = t.val / 4
    ∧ cc0_transform_0 (grid0.coords t) (1 : Fin 2) = 0
    ∧ cc0_transform_2 (grid0.coords t) (0 : Fin 2) = t.val / 4 ∧ cc0_transform_2 (grid0.coords t) (1 : Fin 2) = t.val % 4)

theorem coords_facts : ∀ t : Fin grid0.N, (grid0.coords t 0).val = t.val / 4 ∧ (grid0.coords t 1).val = t.val % 4 := by
  decide +kernel

/-- Window 1's index map at any table: the word at the point's row tile, then 0, then the column tile. -/
theorem transform1_eq (pf : pre0.Contents (Elt F)) (i : grid0.Coords) :
    ∃ x : S32.Idx, (S32.rowMajor x).val = (i 0).val ∧
      cc0_transform_1 k0_off1_inb numel1_S1 pf i = ![(pf 0 x).toNat, 0, (i 1).val] := by
  have h1 : (i 1).val < 4 := (i 1).isLt
  have e1 : (BitVec.ofNat 32 (i 1).val).toNat = (i 1).val := by
    rw [BitVec.toNat_ofNat, Nat.mod_eq_of_lt (by omega)]
  refine @Exists.intro S32.Idx (fun x => (S32.rowMajor x).val = (i 0).val ∧ cc0_transform_1 k0_off1_inb numel1_S1 pf i = ![(pf 0 x).toNat, 0, (i 1).val]) ?wit (And.intro ?hx ?hm)
  case hm =>
    show (![_, (0#32 : BitVec 32).toNat, (BitVec.ofNat 32 (i 1).val).toNat] : Fin 3 → Nat) = _
    rw [e1]
    rfl
  case hx =>
    have h0 : (i 0).val < 32 := (i 0).isLt
    have e0 : (BitVec.ofNat 32 (i 0).val).toNat = (i 0).val := by
      rw [BitVec.toNat_ofNat, Nat.mod_eq_of_lt (by omega)]
    have hf : ∀ (h : 0 < S1.numel), (Shape.Idx.first h (0 : Fin 1)).val = 0 := fun h => by
      have := (Shape.Idx.first h (0 : Fin 1)).isLt
      have e : S1.size (0 : Fin 1) = 1 := by decide
      omega
    refine (Shape.rowMajor_val_one (d := ![32]) _).trans ?_
    show (BitVec.ofNat 32 (i 0).val).toNat + 1 * (Shape.Idx.first (s := S1) _ (0 : Fin 1)).val = (i 0).val
    exact (congrArg₂ (fun a b => a + 1 * b) e0 (hf _)).trans (by omega)

/-- Window 1's index map, at admissible contents whose words are the tiles' groups. -/
theorem idx1_of (a : (pcfg0 (F := F)).Adm) (pf : pre0.Contents (Elt F)) (hpf : a.1 = pf)
    (hlit : ∀ x, (pf 0 x).toNat = Cert.Grouped.tileGrp (S32.rowMajor x).val) (t : Fin (cfg0 a).N) :
    ((cfg0 a).win 1).index t (0 : Fin 3) = Cert.Grouped.tileGrp (t.val / 4)
    ∧ ((cfg0 a).win 1).index t (1 : Fin 3) = 0 ∧ ((cfg0 a).win 1).index t (2 : Fin 3) = t.val % 4 := by
  subst hpf
  have hidx : ((cfg0 a).win 1).index t = cc0_transform_1 k0_off1_inb numel1_S1 a.1 (grid0.coords t) := rfl
  obtain ⟨x, hx, e⟩ := transform1_eq a.1 (grid0.coords t)
  obtain ⟨c0, c1⟩ := coords_facts t
  rw [hidx, e]
  refine ⟨?_, rfl, c1⟩
  exact (hlit x).trans (by rw [hx, c0])

/-! ## The blocks, read at an entry (at any admissible contents of the table) -/

theorem N_eq (a : (pcfg0 (F := F)).Adm) : (cfg0 a).N = 128 := N_0

/-- Block t of window 0 is rows 512 (t / 4) … of the left operand, every column. -/
theorem blk0_read (a : (pcfg0 (F := F)).Adm) (c : Dev nD) (X : Buf (Elt F) ((c : Thread nD τ).loc main_v0))
    (t : Fin (cfg0 a).N) (p : Fin 512) (k : Fin 2048) (r : Fin 16384) (hr : r.val = 512 * (t.val / 4) + p.val) :
    (((cfg0 a).win 0).blk t).view.read (Elt F) X (ix2 p k) = X (ix2 r k) := by
  obtain ⟨e0, e1, -, -⟩ := idx_facts a t
  show X ((((cfg0 a).win 0).blk t).view.emb (ix2 p k)) = X (ix2 r k)
  refine congrArg X ?_
  funext d; apply Fin.ext
  match d with
  | ⟨0, _⟩ => show ((cfg0 a).win 0).index t (0 : Fin 2) * 512 + 1 * p.val = r.val; rw [e0, hr]; omega
  | ⟨1, _⟩ => show ((cfg0 a).win 0).index t (1 : Fin 2) * 2048 + 1 * k.val = k.val; rw [e1]; omega

/-- Block t of window 1 is the matrix the index map names, columns 2048 (t % 4) … . -/
theorem blk1_read (a : (pcfg0 (F := F)).Adm) (c : Dev nD) (X : Buf (Elt F) ((c : Thread nD τ).loc main_v1))
    (t : Fin (cfg0 a).N) (g : Fin 8) (h0 : ((cfg0 a).win 1).index t (0 : Fin 3) = g.val)
    (h1 : ((cfg0 a).win 1).index t (1 : Fin 3) = 0) (h2 : ((cfg0 a).win 1).index t (2 : Fin 3) = t.val % 4)
    (k : Fin 2048) (q : Fin 2048) (cc : Fin 8192) (hc : cc.val = 2048 * (t.val % 4) + q.val) :
    (((cfg0 a).win 1).blk t).view.read (Elt F) X (ix3 (0 : Fin 1) k q) = X (ix3 g k cc) := by
  show X ((((cfg0 a).win 1).blk t).view.emb (ix3 (0 : Fin 1) k q)) = X (ix3 g k cc)
  refine congrArg X ?_
  funext d; apply Fin.ext
  match d with
  | ⟨0, _⟩ => show ((cfg0 a).win 1).index t (0 : Fin 3) * 1 + 1 * 0 = g.val; rw [h0]; omega
  | ⟨1, _⟩ => show ((cfg0 a).win 1).index t (1 : Fin 3) * 2048 + 1 * k.val = k.val; rw [h1]; omega
  | ⟨2, _⟩ => show ((cfg0 a).win 1).index t (2 : Fin 3) * 2048 + 1 * q.val = cc.val; rw [h2, hc]; omega

/-- Entry (p, q) of block t of window 2 is entry (512 (t / 4) + p, 2048 (t % 4) + q) of the result. -/
theorem blk2_emb (a : (pcfg0 (F := F)).Adm) (t : Fin (cfg0 a).N) (p : Fin 512) (q : Fin 2048) (r : Fin 16384) (cc : Fin 8192)
    (hr : r.val = 512 * (t.val / 4) + p.val) (hc : cc.val = 2048 * (t.val % 4) + q.val) :
    (((cfg0 a).win 2).blk t).view.emb (ix2 p q) = ix2 r cc := by
  obtain ⟨-, -, e0, e1⟩ := idx_facts a t
  funext d; apply Fin.ext
  match d with
  | ⟨0, _⟩ => show ((cfg0 a).win 2).index t (0 : Fin 2) * 512 + 1 * p.val = r.val; rw [e0, hr]; omega
  | ⟨1, _⟩ => show ((cfg0 a).win 2).index t (1 : Fin 2) * 2048 + 1 * q.val = cc.val; rw [e1, hc]; omega

theorem tileGrp_lt (t : Nat) : Cert.Grouped.tileGrp t < 8 := by
  unfold Cert.Grouped.tileGrp; split_ifs <;> omega

/-- WHAT A POINT COMPUTES, at an entry: with window 1 on the matrix of the row tile's group, entry (p, q) of the body's
    product of the point's two blocks is the grouped product at entry (512 (t / 4) + p, 2048 (t % 4) + q). -/
theorem point_entry (a : (pcfg0 (F := Ideal)).Adm) (c : Dev nD)
    (X0 : Buf (Elt Ideal) ((c : Thread nD τ).loc main_v0)) (X1 : Buf (Elt Ideal) ((c : Thread nD τ).loc main_v1))
    (t : Fin (cfg0 a).N) (h0 : ((cfg0 a).win 1).index t (0 : Fin 3) = Cert.Grouped.tileGrp (t.val / 4))
    (h1 : ((cfg0 a).win 1).index t (1 : Fin 3) = 0) (h2 : ((cfg0 a).win 1).index t (2 : Fin 3) = t.val % 4)
    (p : Fin 512) (q : Fin 2048) :
    k0_pay1 (F := Ideal) ((((cfg0 a).win 0).blk t).view.read (Elt Ideal) X0) ((((cfg0 a).win 1).blk t).view.read (Elt Ideal) X1) (ix2 p q)
      = Cert.Grouped.G X0 X1 ((((cfg0 a).win 2).blk t).view.emb (ix2 p q)) := by
  have hN := N_eq a
  have ht := t.isLt
  have hp := p.isLt
  have hq := q.isLt
  let r : Fin 16384 := ⟨512 * (t.val / 4) + p.val, by omega⟩
  let cc : Fin 8192 := ⟨2048 * (t.val % 4) + q.val, by omega⟩
  let g : Fin 8 := ⟨Cert.Grouped.tileGrp (t.val / 4), tileGrp_lt _⟩
  have hg : Cert.Grouped.grpF r = g := Fin.ext (Cert.Grouped.grp_tile _ _ hp)
  rw [blk2_emb a t p q r cc rfl rfl, Cert.Grouped.G_apply]
  refine (pay_apply _ _ p q).trans ?_
  unfold Cert.Grouped.entry
  refine Finset.sum_congr rfl fun k _ => ?_
  rw [hg]
  exact congrArg₂ (· * ·) (blk0_read a c X0 t p k r rfl) (blk1_read a c X1 t g h0 h1 h2 k q cc rfl)

/-! ## The cover: every entry of the result is in some point's block -/

set_option backward.isDefEq.respectTransparency.types false in
/-- An index of the result is in point t's block iff each coordinate is in the block's range on its axis. -/
theorem mem_blk2 (a : (pcfg0 (F := F)).Adm) (t : Fin (cfg0 a).N) (i : S16384x8192.Idx) :
    i ∈ (((cfg0 a).win 2).blk t).view.set ↔ ∀ d : Fin 2, ((cfg0 a).win 2).index t d * S512x2048.size d ≤ (i d).val
      ∧ (i d).val < ((cfg0 a).win 2).index t d * S512x2048.size d + S512x2048.size d := by
  show i ∈ ((View.whole main_v2).slice (((cfg0 a).win 2).rect t)).set ↔ _
  rw [View.set_slice_whole]
  exact Rect.mem_set_unit

/-- Entry (r, c) is in the block of point 4 (r / 512) + c / 2048, and every point writes back. -/
theorem cover (a : (pcfg0 (F := F)).Adm) (i : S16384x8192.Idx) :
    ∃ t : Fin (cfg0 a).N, ((cfg0 a).win 2).flush t = true ∧ i ∈ (((cfg0 a).win 2).blk t).view.set := by
  have h0 : (i 0).val < 16384 := (i 0).isLt
  have h1 : (i 1).val < 8192 := (i 1).isLt
  have hN := N_eq a
  let t : Fin (cfg0 a).N := ⟨4 * ((i 0).val / 512) + (i 1).val / 2048, by omega⟩
  have htv : t.val = 4 * ((i 0).val / 512) + (i 1).val / 2048 := rfl
  obtain ⟨-, -, e0, e1⟩ := idx_facts a t
  refine ⟨t, flush0_2 a t, ?_⟩
  rw [mem_blk2]
  intro d
  match d with
  | ⟨0, _⟩ =>
    show ((cfg0 a).win 2).index t (0 : Fin 2) * 512 ≤ (i 0).val ∧ (i 0).val < ((cfg0 a).win 2).index t (0 : Fin 2) * 512 + 512
    rw [e0, htv]; omega
  | ⟨1, _⟩ =>
    show ((cfg0 a).win 2).index t (1 : Fin 2) * 2048 ≤ (i 1).val ∧ (i 1).val < ((cfg0 a).win 2).index t (1 : Fin 2) * 2048 + 2048
    rw [e1, htv]; omega

/-! ## The run, read at the ideal instance -/

section Leg

variable (m : (ℓ : Loc nD τ sig) → Buf (Elt Ideal) ℓ) (ρ : Dev nD → PrngReg)

/-- The region finds the two operands as launched: a change of float format is the identity on the extended reals. -/
theorem V_v0 (c : Dev nD) : (V m c main_v0 : S16384x2048.Idx → EReal) = m ((c : Thread nD τ).loc main_arg0) := by
  dsimp only [V, hostOps0]; after_results; rfl
theorem V_v1 (c : Dev nD) : (V m c main_v1 : S8x2048x8192.Idx → EReal) = m ((c : Thread nD τ).loc main_arg1) := by
  dsimp only [V, hostOps0]; after_results; rfl

/-- WHAT POINT t WRITES BACK is block t of the grouped product of the argument arrays. -/
theorem flushed_eq (hO : Ok m) (c : Dev nD) (t : Fin (cfgM m hO).N) :
    (dats m hO 0 c).flushed 2 t = (((cfgM m hO).win 2).blk t).view.read (Elt Ideal)
      (Cert.Grouped.G (m ((c : Thread nD τ).loc main_arg0)) (m ((c : Thread nD τ).loc main_arg1))) := by
  show ((cfgM m hO).win 2).cut (grid0.coords t) ((dats m hO 0 c).after 2 t) = _
  have hpiece : outsAt0 m hO c t = k0_pay1 (F := Ideal) (iblk m hO c 0 t) (iblk m hO c 1 t) := by
    unfold outsAt0
    exact out_piece c (grid0.coords t) (ms0_0 m hO t) (hs0_0 m hO t) (ms0_1 m hO t) (hs0_1 m hO t) (ms0_2 m hO t) (hs0_2 m hO t)
      (iblk m hO c 0 t) (iblk m hO c 1 t) (tbl m 0)
  rw [after0_2, hpiece]
  have hidx := idx1_of (adm m hO) (tbl m) rfl (fun x => (congrArg BitVec.toNat (Cert.KernelIdeal.TableOk.tbl_eq m x)).trans (Cert.KernelIdeal.TableOk.lit_tile _)) t
  have hG : Cert.Grouped.G (m ((c : Thread nD τ).loc main_arg0)) (m ((c : Thread nD τ).loc main_arg1))
      = Cert.Grouped.G (V m c main_v0) (V m c main_v1) := by rw [V_v0, V_v1]
  rw [hG]
  refine funext fun (y : S512x2048.Idx) => ?_
  obtain ⟨p, q, rfl⟩ : ∃ (p : Fin 512) (q : Fin 2048), y = ix2 p q := ⟨y 0, y 1, eq_ix2 y⟩
  exact point_entry (adm m hO) c (V m c main_v0) (V m c main_v1) t hidx.1 hidx.2.1 hidx.2.2 p q

/-- The result array after the run is the grouped product of the argument arrays. -/
theorem final (hO : Ok m) (c : Dev nD) : (dats m hO 0 c).arrAt 2 (cfgM m hO).N
    = Cert.Grouped.G (m ((c : Thread nD τ).loc main_arg0)) (m ((c : Thread nD τ).loc main_arg1)) :=
  (dats m hO 0 c).arrAt_eq_of_cover 2 _ (fun t _ => flushed_eq m hO c t) (cover (adm m hO))

/-- The run, read: the result array at the grouped product, the arguments unchanged. -/
theorem run (hO : Ok m) : θ_run defs (onTc (τ := τ) (main (F := Ideal))) ⟨m, fun _ => 0, ρ⟩ fun r => ∀ c : Dev nD,
      r.2.mem ((c : Thread nD τ).loc main_v2) = Cert.Grouped.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ hO)

end Leg

end Cert.KernelIdeal.KValue

end
-- ==== Proof.RefValue.lean ====
/-
  The reference's result is the grouped product of its two arguments.

  The reference cuts the left operand into its eight groups of rows, multiplies each group by its own matrix (the
  matrix sliced out of the right operand and re-laid as [2048, 8192]), and joins the eight products along the rows.
  Read at entry (r, c): the row r lies in exactly one group g, the join reads that group's product at row
  r less the group's first row, and that product is the sum over k of x(r, k) · w(g, k, c) on the extended reals:
  the grouped product's entry, with g the group of r.
-/
import proofs.«129619_j31877247271320_1_alg».proof.Proof.Gen.ReferenceIdeal.Read
import proofs.«129619_j31877247271320_1_alg».proof.Proof.Spec
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 : (⟨S16384x2048, .f32⟩ : BufTy).Contents (Elt Ideal)) (x1 : (⟨S8x2048x8192, .f32⟩ : BufTy).Contents (Elt Ideal))

/-- A sum whose k-th term reads the left operand at (r, k) and the right operand at (g, k, c), the indices given by
    their coordinates. -/
theorem sum_of_coords (r : Fin 16384) (g : Fin 8) (c : Fin 8192)
    (L : Fin 2048 → S16384x2048.Idx) (R : Fin 2048 → S8x2048x8192.Idx)
    (hL : ∀ k, (L k 0).val = r.val ∧ (L k 1).val = k.val)
    (hR : ∀ k, (R k 0).val = g.val ∧ (R k 1).val = k.val ∧ (R k 2).val = c.val) :
    (∑ k : Fin 2048, x0 (L k) * x1 (R k)) = ∑ k : Fin 2048, x0 (ix2 r k) * x1 (ix3 g k c) := by
  refine Finset.sum_congr rfl fun k _ => ?_
  have eL : L k = ix2 r k := funext fun a => Fin.ext (by
    match a with
    | ⟨0, _⟩ => exact (hL k).1
    | ⟨1, _⟩ => exact (hL k).2)
  have eR : R k = ix3 g k c := funext fun a => Fin.ext (by
    match a with
    | ⟨0, _⟩ => exact (hR k).1
    | ⟨1, _⟩ => exact (hR k).2.1
    | ⟨2, _⟩ => exact (hR k).2.2)
  rw [eL, eR]

/-- One group's product at an entry, as the sum with both operands read by coordinates: the read-at-an-index lemmas
    of the group's slice, re-laying and product bring it to a sum over the shared axis of the left operand at
    (first row of the group + p, k) times the right operand at (group, k, c); the five coordinate equations are
    arithmetic on the literal extents. -/
local macro "group_entry" : tactic => `(tactic| (
  simp only [
    val_main_v3_apply, val_main_v7_apply, val_main_v11_apply, val_main_v15_apply, val_main_v19_apply,
    val_main_v23_apply, val_main_v27_apply, val_main_v31_apply, val_main_v0_apply, val_main_v1_apply,
    val_main_v2_apply, val_main_v4_apply, val_main_v5_apply, val_main_v6_apply, val_main_v8_apply,
    val_main_v9_apply, val_main_v10_apply, val_main_v12_apply, val_main_v13_apply, val_main_v14_apply,
    val_main_v16_apply, val_main_v17_apply, val_main_v18_apply, val_main_v20_apply, val_main_v21_apply,
    val_main_v22_apply, val_main_v24_apply, val_main_v25_apply, val_main_v26_apply, val_main_v28_apply,
    val_main_v29_apply, val_main_v30_apply]
  refine sum_of_coords _ _ _ _ _ _ _ (fun k => ⟨?_, ?_⟩) (fun k => ⟨?_, ?_, ?_⟩)
  all_goals first
    | rfl
    | (dsimp only [
        idx_main_v0, idx_main_v1, idx_main_v2, idx_main_v4, idx_main_v5, idx_main_v6, idx_main_v8, idx_main_v9,
        idx_main_v10, idx_main_v12, idx_main_v13, idx_main_v14, idx_main_v16, idx_main_v17, idx_main_v18,
        idx_main_v20, idx_main_v21, idx_main_v22, idx_main_v24, idx_main_v25, idx_main_v26, idx_main_v28,
        idx_main_v29, idx_main_v30, lidx_main_v3, lidx_main_v7, lidx_main_v11, lidx_main_v15, lidx_main_v19,
        lidx_main_v23, lidx_main_v27, lidx_main_v31, ridx_main_v3, ridx_main_v7, ridx_main_v11, ridx_main_v15,
        ridx_main_v19, ridx_main_v23, ridx_main_v27, ridx_main_v31, ix2]
       omega)))

/-! ## The eight groups' products at an entry: rows 0, 1024, 2560, 4608, 6656, 9216, 11264 and 14336 on -/

theorem grp0_entry (p : Fin 1024) (c : Fin 8192) (r : Fin 16384) (hr : r.val = 0 + p.val) :
    val_main_v3 (F := Ideal) x0 x1 (ix2 p c) = ∑ k : Fin 2048, x0 (ix2 r k) * x1 (ix3 (0 : Fin 8) k c) := by
  have hc := c.isLt
  group_entry

theorem grp1_entry (p : Fin 1536) (c : Fin 8192) (r : Fin 16384) (hr : r.val = 1024 + p.val) :
    val_main_v7 (F := Ideal) x0 x1 (ix2 p c) = ∑ k : Fin 2048, x0 (ix2 r k) * x1 (ix3 (1 : Fin 8) k c) := by
  have hc := c.isLt
  group_entry

theorem grp2_entry (p : Fin 2048) (c : Fin 8192) (r : Fin 16384) (hr : r.val = 2560 + p.val) :
    val_main_v11 (F := Ideal) x0 x1 (ix2 p c) = ∑ k : Fin 2048, x0 (ix2 r k) * x1 (ix3 (2 : Fin 8) k c) := by
  have hc := c.isLt
  group_entry

theorem grp3_entry (p : Fin 2048) (c : Fin 8192) (r : Fin 16384) (hr : r.val = 4608 + p.val) :
    val_main_v15 (F := Ideal) x0 x1 (ix2 p c) = ∑ k : Fin 2048, x0 (ix2 r k) * x1 (ix3 (3 : Fin 8) k c) := by
  have hc := c.isLt
  group_entry

theorem grp4_entry (p : Fin 2560) (c : Fin 8192) (r : Fin 16384) (hr : r.val = 6656 + p.val) :
    val_main_v19 (F := Ideal) x0 x1 (ix2 p c) = ∑ k : Fin 2048, x0 (ix2 r k) * x1 (ix3 (4 : Fin 8) k c) := by
  have hc := c.isLt
  group_entry

theorem grp5_entry (p : Fin 2048) (c : Fin 8192) (r : Fin 16384) (hr : r.val = 9216 + p.val) :
    val_main_v23 (F := Ideal) x0 x1 (ix2 p c) = ∑ k : Fin 2048, x0 (ix2 r k) * x1 (ix3 (5 : Fin 8) k c) := by
  have hc := c.isLt
  group_entry

theorem grp6_entry (p : Fin 3072) (c : Fin 8192) (r : Fin 16384) (hr : r.val = 11264 + p.val) :
    val_main_v27 (F := Ideal) x0 x1 (ix2 p c) = ∑ k : Fin 2048, x0 (ix2 r k) * x1 (ix3 (6 : Fin 8) k c) := by
  have hc := c.isLt
  group_entry

theorem grp7_entry (p : Fin 2048) (c : Fin 8192) (r : Fin 16384) (hr : r.val = 14336 + p.val) :
    val_main_v31 (F := Ideal) x0 x1 (ix2 p c) = ∑ k : Fin 2048, x0 (ix2 r k) * x1 (ix3 (7 : Fin 8) k c) := by
  have hc := c.isLt
  group_entry

/-! ## The join along the rows, read at an entry -/

/-- A join of [n, 8192] pieces along the rows, read at (r, c) with r in piece k's span (the pieces before it have
    `off` rows in all): piece k at row r less `off`. -/
theorem concat_row (xs : List ((s : Shape) × (s.Idx → EReal))) (h : Shape.Concatenates (xs.map (·.1)) S16384x8192 0)
    (r : Fin 16384) (c : Fin 8192) (k : Nat) (hk : k < xs.length) (n : Nat) (P : (⟨2, ![n, 8192]⟩ : Shape).Idx → EReal)
    (hxk : xs[k] = ⟨⟨2, ![n, 8192]⟩, P⟩) (off : Nat)
    (hpre : (((xs.take k).map (·.1)).map fun s => if h : s.rank = S16384x8192.rank then s.size ((0 : Fin 2).cast h.symm) else 0).sum = off)
    (h1 : off ≤ r.val) (h2 : r.val < off + n) :
    concatenate S16384x8192 0 xs h (ix2 r c) = P (ix2 ⟨r.val - off, by omega⟩ c) :=
  concatenate_apply_piece (0 : Fin 2) xs h (ix2 r c) k hk ⟨2, ![n, 8192]⟩ P hxk rfl off hpre (ix2 ⟨r.val - off, by omega⟩ c)
    (fun b hb => by
      match b with
      | ⟨0, _⟩ => exact absurd rfl hb
      | ⟨1, _⟩ => rfl)
    (by show off + (r.val - off) = r.val; omega)

/-- The group of a row, from its value. -/
theorem grpF_of (r : Fin 16384) (g : Fin 8) (h : Cert.Grouped.grp r.val = g.val) : Cert.Grouped.grpF r = g := Fin.ext h

set_option maxRecDepth 200000 in
/-- THE REFERENCE'S RESULT, index by index, is the grouped product: by the group that holds the row. -/
theorem ref_eq : val_main_v32 (F := Ideal) x0 x1 = Cert.Grouped.G x0 x1 := by
  funext j
  obtain ⟨r, c, rfl⟩ : ∃ (r : Fin 16384) (c : Fin 8192), j = ix2 r c := ⟨j 0, j 1, eq_ix2 j⟩
  rw [Cert.Grouped.G_apply]
  unfold val_main_v32 Cert.Grouped.entry
  have hr := r.isLt
  by_cases h1 : r.val < 1024
  · rw [grpF_of r 0 (by unfold Cert.Grouped.grp; split_ifs <;> omega)]
    exact (concat_row _ _ r c 0 (by simp) 1024 _ rfl 0 rfl (by omega) (by omega)).trans
      (grp0_entry x0 x1 _ c r (by show r.val = 0 + (r.val - 0); omega))
  by_cases h2 : r.val < 2560
  · rw [grpF_of r 1 (by unfold Cert.Grouped.grp; split_ifs <;> omega)]
    exact (concat_row _ _ r c 1 (by simp) 1536 _ rfl 1024 rfl (by omega) (by omega)).trans
      (grp1_entry x0 x1 _ c r (by show r.val = 1024 + (r.val - 1024); omega))
  by_cases h3 : r.val < 4608
  · rw [grpF_of r 2 (by unfold Cert.Grouped.grp; split_ifs <;> omega)]
    exact (concat_row _ _ r c 2 (by simp) 2048 _ rfl 2560 rfl (by omega) (by omega)).trans
      (grp2_entry x0 x1 _ c r (by show r.val = 2560 + (r.val - 2560); omega))
  by_cases h4 : r.val < 6656
  · rw [grpF_of r 3 (by unfold Cert.Grouped.grp; split_ifs <;> omega)]
    exact (concat_row _ _ r c 3 (by simp) 2048 _ rfl 4608 rfl (by omega) (by omega)).trans
      (grp3_entry x0 x1 _ c r (by show r.val = 4608 + (r.val - 4608); omega))
  by_cases h5 : r.val < 9216
  · rw [grpF_of r 4 (by unfold Cert.Grouped.grp; split_ifs <;> omega)]
    exact (concat_row _ _ r c 4 (by simp) 2560 _ rfl 6656 rfl (by omega) (by omega)).trans
      (grp4_entry x0 x1 _ c r (by show r.val = 6656 + (r.val - 6656); omega))
  by_cases h6 : r.val < 11264
  · rw [grpF_of r 5 (by unfold Cert.Grouped.grp; split_ifs <;> omega)]
    exact (concat_row _ _ r c 5 (by simp) 2048 _ rfl 9216 rfl (by omega) (by omega)).trans
      (grp5_entry x0 x1 _ c r (by show r.val = 9216 + (r.val - 9216); omega))
  by_cases h7 : r.val < 14336
  · rw [grpF_of r 6 (by unfold Cert.Grouped.grp; split_ifs <;> omega)]
    exact (concat_row _ _ r c 6 (by simp) 3072 _ rfl 11264 rfl (by omega) (by omega)).trans
      (grp6_entry x0 x1 _ c r (by show r.val = 11264 + (r.val - 11264); omega))
  · rw [grpF_of r 7 (by unfold Cert.Grouped.grp; split_ifs <;> omega)]
    exact (concat_row _ _ r c 7 (by simp) 2048 _ rfl 14336 rfl (by omega) (by omega)).trans
      (grp7_entry x0 x1 _ c r (by show r.val = 14336 + (r.val - 14336); omega))

end Cert.ReferenceIdeal.RefValue

end
-- ==== Proof.lean ====
/-
  The certificate of the grouped matrix product: the kernel against its reference, over the extended reals.

  Both programs compute, at entry (r, c), the sum over k of x(r, k) · w(g(r), k, c), where g(r) is the one of eight
  consecutive row groups (of 1024, 1536, 2048, 2048, 2560, 2048, 3072 and 2048 rows) that holds row r.
  The kernel walks a grid of 32 row tiles by 4 column tiles and picks each row tile's matrix through a prefetched
  table of the tiles' groups, a constant of the program itself; every group is a whole number of tiles, so the tile's
  group is the group of each of its rows (Proof/KernelIdealValue.lean). The reference slices the eight groups out,
  multiplies each by its matrix and joins the products along the rows (Proof/RefValue.lean). The two sums have the
  same terms, so no law of the extended reals beyond that is used and the finiteness of the inputs is never opened.

  The frames of the two kernel programs hold under the pipeline's side condition on the table's contents, which the
  constant's words (all below 8) give outright (Proof/KernelOk.lean, Proof/KernelIdealOk.lean); the reference's frame
  is its run with the result dropped. The idealization rewrote nothing, so what it must preserve is trivial.
-/
import proofs.«129619_j31877247271320_1_alg».proof.Defs
import proofs.«129619_j31877247271320_1_alg».proof.Proof.Gen.Kernel
import proofs.«129619_j31877247271320_1_alg».proof.Proof.Gen.Kernel.Skeleton
import proofs.«129619_j31877247271320_1_alg».proof.Proof.Gen.Kernel.Launch
import proofs.«129619_j31877247271320_1_alg».proof.Proof.Gen.Kernel.Points
import proofs.«129619_j31877247271320_1_alg».proof.Proof.Gen.Kernel.Frame
import proofs.«129619_j31877247271320_1_alg».proof.Proof.Gen.KernelIdeal
import proofs.«129619_j31877247271320_1_alg».proof.Proof.Gen.KernelIdeal.Skeleton
import proofs.«129619_j31877247271320_1_alg».proof.Proof.Gen.KernelIdeal.Launch
import proofs.«129619_j31877247271320_1_alg».proof.Proof.Gen.KernelIdeal.Points
import proofs.«129619_j31877247271320_1_alg».proof.Proof.Gen.KernelIdeal.Frame
import proofs.«129619_j31877247271320_1_alg».proof.Proof.Gen.ReferenceIdeal
import proofs.«129619_j31877247271320_1_alg».proof.Proof.Gen.Pre_finite_inputs
import proofs.«129619_j31877247271320_1_alg».proof.Proof.Gen.ReferenceIdeal.Run
import proofs.«129619_j31877247271320_1_alg».proof.Proof.Gen.ReferenceIdeal.Read
import proofs.«129619_j31877247271320_1_alg».proof.Proof.KernelOk
import proofs.«129619_j31877247271320_1_alg».proof.Proof.KernelIdealOk
import proofs.«129619_j31877247271320_1_alg».proof.Proof.KernelIdealValue
import proofs.«129619_j31877247271320_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the table's words are below 8. -/
theorem frame_k : Cert.frame_Kernel := fun m ρ _ => Cert.Kernel.Gen.frame m ρ (Cert.Kernel.TableOk.ok m)

/-- So does the idealized kernel. -/
theorem frame_ki : Cert.frame_KernelIdeal := fun m ρ _ => Cert.KernelIdeal.Gen.frame m ρ (Cert.KernelIdeal.TableOk.ok m)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both result arrays end at the grouped product of arguments that agree. -/
theorem algebraic : Cert.algebraic_KernelIdeal_ReferenceIdeal := by
  intro m ρ m' ρ' _ hagree
  refine ⟨fun c => Cert.Grouped.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ (Cert.KernelIdeal.TableOk.ok m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
